-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x8 : Shape := ⟨2, ![640000, 8]⟩
abbrev S264x128 : Shape := ⟨2, ![264, 128]⟩
abbrev S128 : Shape := ⟨1, ![128]⟩
abbrev S128x1 : Shape := ⟨2, ![128, 1]⟩
abbrev S1 : Shape := ⟨1, ![1]⟩
abbrev S640000 : Shape := ⟨1, ![640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x8 : S_.BroadcastsInDim S640000x8 (![] : Fin 0 → Fin S640000x8.rank)
  reducesTo_S640000x8_S_d0_1 : S640000x8.ReducesTo [0, 1] S_
  bcast_S_S264x128 : S_.BroadcastsInDim S264x128 (![] : Fin 0 → Fin S264x128.rank)
  reducesTo_S264x128_S_d0_1 : S264x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128 .f32) (main_arg5 : FVec F S128x1 .f32) (main_arg6 : FVec F S1 .f32) (main_v13 : IVec S_ 1) (main_v16 : IVec S264x128 1) : IVec S_ 1 :=
  let main_c_5 : IVec S_ 1 := constantI S_ 1 1#1
  let main_v17 : IVec S_ 1 := (fun x v => Host.reduce IntOp.andi x v reducesTo_S264x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S40000x128 .f32) (main_arg1 : FVec F S40000x128 .f32) (main_arg2 : FVec F S640000x8 .f32) (main_arg3 : FVec F S264x128 .f32) (main_arg4 : FVec F S128 .f32) (main_arg5 : FVec F S128x1 .f32) (main_arg6 : FVec F S1 .f32) (main_arg7 : IVec S640000 32) (main_arg8 : IVec S640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S640000x8 .f32 := Host.absf main_arg2
  let main_cst_2 : FVec F S_ .f32 := constant S_ .f32 0x7F800000#32
  let main_v10 : FVec F S640000x8 .f32 := broadcastInDim S640000x8 ![] bcast_S_S640000x8 main_cst_2
  let main_v11 : IVec S640000x8 1 := cmpf .olt main_v9 main_v10
  let main_c_3 : IVec S_ 1 := constantI S_ 1 1#1
  let main_v12 : IVec S_ 1 := (fun x v => Host.reduce IntOp.andi x v reducesTo_S640000x8_S_d0_1 h_S_) main_v11 main_c_3
  let main_v13 : IVec S_ 1 := andi main_v8 main_v12
  let main_v14 : FVec F S264x128 .f32 := Host.absf main_arg3
  let main_cst_4 : FVec F S_ .f32 := constant S_ .f32 0x7F800000#32
  let main_v15 : FVec F S264x128 .f32 := broadcastInDim S264x128 ![] bcast_S_S264x128 main_cst_4
  let main_v16 : IVec S264x128 1 := cmpf .olt main_v14 main_v15
  fn_part1 (F := F) main_arg4 main_arg5 main_arg6 main_v13 main_v16
-- ==== Kernel.lean ====
abbrev S40000x128 : Shape := ⟨2, ![40000, 128]⟩
abbrev S640000x8 : Shape := ⟨2, ![640000, 8]⟩
abbrev S264x128 : Shape := ⟨2, ![264, 128]⟩
abbrev S128 : Shape := ⟨1, ![128]⟩
abbrev S128x1 : Shape := ⟨2, ![128, 1]⟩
abbrev S1 : Shape := ⟨1, ![1]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x128 : Shape := ⟨2, ![128, 128]⟩
abbrev S8x128 : Shape := ⟨2, ![8, 128]⟩
abbrev S1x128 : Shape := ⟨2, ![1, 128]⟩
abbrev S1x1 : Shape := ⟨2, ![1, 1]⟩
abbrev S8000x128 : Shape := ⟨2, ![8000, 128]⟩
abbrev S8000x8 : Shape := ⟨2, ![8000, 8]⟩
abbrev S8000x1 : Shape := ⟨2, ![8000, 1]⟩

abbrev nBuf : Space → Nat
  | .hbm => 37
  | .vmem => 14
  | .smem => 0
  | _ => 0

abbrev bufTy : (tb : Table) → Fin (tcTables nBuf tb) → BufTy
  | .hbm, ⟨0, _⟩ => ⟨S40000x128, .f32⟩
  | .hbm, ⟨1, _⟩ => ⟨S40000x128, .f32⟩
  | .hbm, ⟨2, _⟩ => ⟨S640000x8, .f32⟩
  | .hbm, ⟨3, _⟩ => ⟨S264x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S128x128, .f32⟩
  | .hbm, ⟨28, _⟩ => ⟨S128x128, .f32⟩
  | .hbm, ⟨29, _⟩ => ⟨S8x128, .f32⟩
  | .hbm, ⟨30, _⟩ => ⟨S1x128, .f32⟩
  | .hbm, ⟨31, _⟩ => ⟨S1x1, .f32⟩
  | .hbm, ⟨32, _⟩ => ⟨S640000x128, .f32⟩
  | .hbm, ⟨33, _⟩ => ⟨S_, .f32⟩
  | .hbm, ⟨34, _⟩ => ⟨S40000x128, .f32⟩
  | .hbm, ⟨35, _⟩ => ⟨S640000x1, .i32⟩
  | .hbm, ⟨36, _⟩ => ⟨S40000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x8, .f32⟩
  | .local _ .vmem, ⟨5, _⟩ => ⟨S8000x8, .f32⟩
  | .local _ .vmem, ⟨6, _⟩ => ⟨S128x128, .f32⟩
  | .local _ .vmem, ⟨7, _⟩ => ⟨S128x128, .f32⟩
  | .local _ .vmem, ⟨8, _⟩ => ⟨S8x128, .f32⟩
  | .local _ .vmem, ⟨9, _⟩ => ⟨S1x128, .f32⟩
  | .local _ .vmem, ⟨10, _⟩ => ⟨S128x1, .f32⟩
  | .local _ .vmem, ⟨11, _⟩ => ⟨S1x1, .f32⟩
  | .local _ .vmem, ⟨12, _⟩ => ⟨S8000x128, .f32⟩
  | .local _ .vmem, ⟨13, _⟩ => ⟨S8000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  slices_S264x128_S128x128_0_0 : S264x128.Slices ![0, 0] S128x128
  slices_S264x128_S128x128_128_0 : S264x128.Slices ![128, 0] S128x128
  slices_S264x128_S8x128_256_0 : S264x128.Slices ![256, 0] S8x128
  shapeCasts_S128_S1x128 : S128.ShapeCasts S1x128
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8000x8_S8000x8_0_0 : ∀ a, (![0, 0] : Fin 2 → Nat) a + S8000x8.size a ≤ S8000x8.size a
  h_S8000x8 : 0 < S8000x8.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  broadcasts_S8000x1_S8000x128 : S8000x1.Broadcasts S8000x128
  bcast_S_S40000x128 : S_.BroadcastsInDim S40000x128 (![] : Fin 0 → Fin S40000x128.rank)
  gather_S40000x128_S640000x1_S640000x128_1_0_n_n_0_1_1128_wf : GatherDims.WF S40000x128 S640000x1 S640000x128 [1] [0] [] [0] [] 1 ![1, 128]
  dot_S8000x128_S128x128_S8000x128_1_0_0_1_n_n_wf : DotDims.WF S8000x128 S128x128 S8000x128 [1] [0] [0] [1] [] []
  dot_S8000x8_S8x128_S8000x128_1_0_0_1_n_n_wf : DotDims.WF S8000x8 S8x128 S8000x128 [1] [0] [0] [1] [] []
  dot_S8000x128_S128x1_S8000x1_1_0_0_1_n_n_wf : DotDims.WF S8000x128 S128x1 S8000x1 [1] [0] [0] [1] [] []
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x8.size a ≤ S640000x8.size a
  hwx0_2 : ∀ i : grid0.Coords, EltTy.bits .f32 = 32 ∨ (Rect.block (s := S640000x8) S8000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x128.size a ≤ S640000x128.size a
  hwx0_9 : ∀ i : grid0.Coords, EltTy.bits .f32 = 32 ∨ (Rect.block (s := S640000x128) S8000x128.size (cc0_transform_9 i) (hinb0_9 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x8_S8x128_S8000x128_1_0_0_1_n_n : DotDims S8000x8 S8x128 S8000x128 where
  lhsContracting := [1]
  rhsContracting := [0]
  lhsNonContracting := [0]
  rhsNonContracting := [1]
  lhsBatch := []
  rhsBatch := []
  wf := dot_S8000x8_S8x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_v6) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S8000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000x8 : Shape := ⟨2, ![640000, 8]⟩
abbrev S264x128 : Shape := ⟨2, ![264, 128]⟩
abbrev S128 : Shape := ⟨1, ![128]⟩
abbrev S128x1 : Shape := ⟨2, ![128, 1]⟩
abbrev S1 : Shape := ⟨1, ![1]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x264 : Shape := ⟨2, ![640000, 264]⟩
abbrev S1x128 : Shape := ⟨2, ![1, 128]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S40000x128, .f32⟩
  | .hbm, ⟨2, _⟩ => ⟨S640000x8, .f32⟩
  | .hbm, ⟨3, _⟩ => ⟨S264x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S640000x264, .f32⟩
  | .hbm, ⟨28, _⟩ => ⟨S640000x128, .f32⟩
  | .hbm, ⟨29, _⟩ => ⟨S1x128, .f32⟩
  | .hbm, ⟨30, _⟩ => ⟨S640000x128, .f32⟩
  | .hbm, ⟨31, _⟩ => ⟨S640000x128, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S640000x128, .f32⟩
  | .hbm, ⟨36, _⟩ => ⟨S640000x128, .f32⟩
  | .hbm, ⟨37, _⟩ => ⟨S_, .f32⟩
  | .hbm, ⟨38, _⟩ => ⟨S640000x128, .f32⟩
  | .hbm, ⟨39, _⟩ => ⟨S640000x128, .f32⟩
  | .hbm, ⟨40, _⟩ => ⟨S640000x128, .f32⟩
  | .hbm, ⟨41, _⟩ => ⟨S640000x1, .f32⟩
  | .hbm, ⟨42, _⟩ => ⟨S1x1, .f32⟩
  | .hbm, ⟨43, _⟩ => ⟨S640000x1, .f32⟩
  | .hbm, ⟨44, _⟩ => ⟨S640000x1, .f32⟩
  | .hbm, ⟨45, _⟩ => ⟨S640000x1, .f32⟩
  | .hbm, ⟨46, _⟩ => ⟨S640000x1, .f32⟩
  | .hbm, ⟨47, _⟩ => ⟨S_, .f32⟩
  | .hbm, ⟨48, _⟩ => ⟨S640000x1, .f32⟩
  | .hbm, ⟨49, _⟩ => ⟨S640000x1, .f32⟩
  | .hbm, ⟨50, _⟩ => ⟨S_, .f32⟩
  | .hbm, ⟨51, _⟩ => ⟨S640000x1, .f32⟩
  | .hbm, ⟨52, _⟩ => ⟨S640000x1, .f32⟩
  | .hbm, ⟨53, _⟩ => ⟨S640000x128, .f32⟩
  | .hbm, ⟨54, _⟩ => ⟨S640000x128, .f32⟩
  | .hbm, ⟨55, _⟩ => ⟨S_, .f32⟩
  | .hbm, ⟨56, _⟩ => ⟨S40000x128, .f32⟩
  | .hbm, ⟨57, _⟩ => ⟨S640000x1, .i32⟩
  | .hbm, ⟨58, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x8_S640000x264_d1 : Shape.Concatenates [S640000x128, S640000x128, S640000x8] S640000x264 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  gather_S40000x128_S640000x1_S640000x128_1_0_n_n_0_1_1128_wf : GatherDims.WF S40000x128 S640000x1 S640000x128 [1] [0] [] [0] [] 1 ![1, 128]
  dot_S640000x264_S264x128_S640000x128_1_0_0_1_n_n_wf : DotDims.WF S640000x264 S264x128 S640000x128 [1] [0] [0] [1] [] []
  dot_S640000x128_S128x1_S640000x1_1_0_0_1_n_n_wf : DotDims.WF S640000x128 S128x1 S640000x1 [1] [0] [0] [1] [] []
  scatter_S40000x128_S640000x1_S640000x128_1_0_0_1_wf : ScatterDims.WF S40000x128 S640000x1 S640000x128 [1] [0] [0] 1

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x264_S264x128_S640000x128_1_0_0_1_n_n : DotDims S640000x264 S264x128 S640000x128 where
  lhsContracting := [1]
  rhsContracting := [0]
  lhsNonContracting := [0]
  rhsNonContracting := [1]
  lhsBatch := []
  rhsBatch := []
  wf := dot_S640000x264_S264x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.RowGate.lean ====
/-
  One edge of the gated message layer, as arithmetic on the extended reals.

  An edge carries a sender row `a`, a receiver row `b` (128 numbers each) and an attribute row `c`
  (8 numbers).  Its pre-activation at channel `j` is the product of the joined row `[a | b | c]`
  (264 numbers) with column `j` of a 264 x 128 weight matrix, plus a bias.  The product can be taken in
  one sum over the 264 joined entries (`pre1`), or as three partial products against the three row bands of
  the weight matrix, added up (`pre3`).  On the extended reals addition is commutative and associative, so
  the two agree for every input, infinite ones included (`pre3_eq_pre1`); no finiteness is used.

  From the pre-activation row `h` the message is `h j * sigma (h j)` (sigma the logistic function), the
  gate is `sigma (sum_k message k * wi k + bi)`, one number per edge, and the edge's output at channel `j`
  is message times gate (`gated`).
-/
import Idealize.ShloMosaic.PureOps.Ideal
import Idealize.ShloMosaic.PureOps.Ideal.Laws

noncomputable section

namespace Cert.EdgeGate

open Idealize.ShloMosaic

/-- The pre-activation at channel `j` as three partial products, added left to right, plus the bias. -/
def pre3 (a b : Fin 128 → EReal) (c : Fin 8 → EReal) (Ws Wr : Fin 128 → Fin 128 → EReal)
    (We : Fin 8 → Fin 128 → EReal) (bv : Fin 128 → EReal) (j : Fin 128) : EReal :=
  (((∑ k : Fin 128, a k * Ws k j) + (∑ k : Fin 128, b k * Wr k j)) + (∑ k : Fin 8, c k * We k j)) + bv j

/-- The pre-activation at channel `j` as one product of a 264-entry row with the whole weight matrix, plus the bias. -/
def pre1 (x : Fin 264 → EReal) (W : Fin 264 → Fin 128 → EReal) (bv : Fin 128 → EReal) (j : Fin 128) : EReal :=
  (∑ k : Fin 264, x k * W k j) + bv j

/-- The joined row `[a | b | c]`: entries 0..127 are `a`, 128..255 are `b`, 256..263 are `c`. -/
def cat (a b : Fin 128 → EReal) (c : Fin 8 → EReal) (k : Fin 264) : EReal :=
  if h : k.val < 128 then a ⟨k.val, h⟩
  else if h' : k.val < 256 then b ⟨k.val - 128, by omega⟩
  else c ⟨k.val - 256, by omega⟩

/-- Rows 0..127 of a 264-row matrix. -/
def bandS (W : Fin 264 → Fin 128 → EReal) (k : Fin 128) : Fin 128 → EReal := W ⟨k.val, by omega⟩
/-- Rows 128..255. -/
def bandR (W : Fin 264 → Fin 128 → EReal) (k : Fin 128) : Fin 128 → EReal := W ⟨128 + k.val, by omega⟩
/-- Rows 256..263. -/
def bandE (W : Fin 264 → Fin 128 → EReal) (k : Fin 8) : Fin 128 → EReal := W ⟨256 + k.val, by omega⟩

/-- A sum over 264 consecutive indices is the sum of its first 128, its next 128 and its last 8 terms. -/
theorem sum_264_split (f : Fin 264 → EReal) :
    ∑ k : Fin 264, f k
      = ((∑ k : Fin 128, f ⟨k.val, by omega⟩) + (∑ k : Fin 128, f ⟨128 + k.val, by omega⟩))
        + (∑ k : Fin 8, f ⟨256 + k.val, by omega⟩) := by
  show ∑ k : Fin (128 + 128 + 8), f k = _
  rw [Fin.sum_univ_add, Fin.sum_univ_add]
  rfl

/-- The three partial products against the three row bands add up to the one product with the joined row. -/
theorem pre3_eq_pre1 (a b : Fin 128 → EReal) (c : Fin 8 → EReal) (W : Fin 264 → Fin 128 → EReal)
    (bv : Fin 128 → EReal) (j : Fin 128) :
    pre3 a b c (bandS W) (bandR W) (bandE W) bv j = pre1 (cat a b c) W bv j := by
  unfold pre3 pre1
  rw [sum_264_split]
  have e1 : ∀ k : Fin 128, cat a b c ⟨k.val, by omega⟩ * W ⟨k.val, by omega⟩ j = a k * bandS W k j := fun k => by
    have hk : (⟨k.val, by omega⟩ : Fin 264).val < 128 := k.isLt
    unfold cat bandS
    rw [dif_pos hk]
  have e2 : ∀ k : Fin 128, cat a b c ⟨128 + k.val, by omega⟩ * W ⟨128 + k.val, by omega⟩ j = b k * bandR W k j := fun k => by
    have h1 : ¬ (⟨128 + k.val, by omega⟩ : Fin 264).val < 128 := by show ¬ 128 + k.val < 128; omega
    have h2 : (⟨128 + k.val, by omega⟩ : Fin 264).val < 256 := by show 128 + k.val < 256; omega
    have hb : (⟨(⟨128 + k.val, by omega⟩ : Fin 264).val - 128, by omega⟩ : Fin 128) = k :=
      Fin.ext (by show 128 + k.val - 128 = k.val; omega)
    unfold cat bandR
    rw [dif_neg h1, dif_pos h2, hb]
  have e3 : ∀ k : Fin 8, cat a b c ⟨256 + k.val, by omega⟩ * W ⟨256 + k.val, by omega⟩ j = c k * bandE W k j := fun k => by
    have h1 : ¬ (⟨256 + k.val, by omega⟩ : Fin 264).val < 128 := by show ¬ 256 + k.val < 128; omega
    have h2 : ¬ (⟨256 + k.val, by omega⟩ : Fin 264).val < 256 := by show ¬ 256 + k.val < 256; omega
    have hc : (⟨(⟨256 + k.val, by omega⟩ : Fin 264).val - 256, by omega⟩ : Fin 8) = k :=
      Fin.ext (by show 256 + k.val - 256 = k.val; omega)
    unfold cat bandE
    rw [dif_neg h1, dif_neg h2, hc]
  simp only [e1, e2, e3]

/-- The edge's output at channel `j` from its pre-activation row: message `h j * sigma (h j)` times the
    edge's gate `sigma (sum_k message k * wi k + bi)`. -/
def gated (h : Fin 128 → EReal) (wi : Fin 128 → EReal) (bi : EReal) (j : Fin 128) : EReal :=
  (h j * Ideal.logistic (h j)) * Ideal.logistic ((∑ k : Fin 128, (h k * Ideal.logistic (h k)) * wi k) + bi)

end Cert.EdgeGate

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KernelBlock.lean ====
/-
  What one grid point of the kernel stores, entry by entry.

  At a grid point the body holds a block of 8000 edges: their sender rows `x0`, receiver rows `x1` (8000 x 128
  each) and attribute rows `x2` (8000 x 8), the three row bands of the first layer's weights `x3`, `x4`
  (128 x 128) and `x5` (8 x 128), its bias as a row `x6` (1 x 128), the gate's weights as a column `x7` (128 x 1)
  and the gate's bias `x8` (1 x 1).  Every block product is taken into a zero accumulator, so at row `p` and
  column `q` it is the plain sum over the contracted index.  The stored value at `(p, q)` therefore depends only
  on row `p` of `x0`, `x1`, `x2`: it is `gated` of that edge's pre-activation row in its three-band form `pre3`.
-/
import proofs.«155538_j14886356648021_1_alg».proof.Proof.Gen.KernelIdeal.Skeleton
import proofs.«155538_j14886356648021_1_alg».proof.Proof.RowGate
import proofs.«155538_j14886356648021_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.EdgeGate Cert.LibKeepdims

/-! ### The contraction of `S8000x128` with `S128x128` -/

theorem lhsA_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhsA_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhsA_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhsA_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The block product into a zero accumulator, at row `p` and column `q`, is the sum over the 128 contracted
    positions of the left factor's row `p` times the right factor's column `q`. -/
theorem matmulA_apply (l : FVec Ideal S8000x128 .f32) (r : FVec Ideal S128x128 .f32) (p : Fin 8000) (q : Fin 128) :
    matmul dot_S8000x128_S128x128_S8000x128_1_0_0_1_n_n none l r (constant (F := Ideal) S8000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p q) ((ValueIdx.contrEquiv1 dot_S8000x128_S128x128_S8000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S8000x128_S128x128_S8000x128_1_0_0_1_n_n.rhsIdx (ix2 p q) ((ValueIdx.contrEquiv1 dot_S8000x128_S128x128_S8000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ### The contraction of `S8000x8` with `S8x128` -/

theorem lhsB_0 (i : S8000x128.Idx) (q : dot_S8000x8_S8x128_S8000x128_1_0_0_1_n_n.contr.Idx) :
    (dot_S8000x8_S8x128_S8000x128_1_0_0_1_n_n.lhsIdx i q 0).val = (i 0).val := by
  unfold DotDims.lhsIdx
  rw [dif_neg (show ¬(0 : Fin S8000x8.rank) ∈ dot_S8000x8_S8x128_S8000x128_1_0_0_1_n_n.lhsBatch by decide), dif_pos (show (0 : Fin S8000x8.rank) ∈ dot_S8000x8_S8x128_S8000x128_1_0_0_1_n_n.lhsNonContracting by decide)]
  rfl
theorem lhsB_1 (i : S8000x128.Idx) (q : dot_S8000x8_S8x128_S8000x128_1_0_0_1_n_n.contr.Idx) :
    (dot_S8000x8_S8x128_S8000x128_1_0_0_1_n_n.lhsIdx i q 1).val = (q ⟨0, by decide⟩).val :=
  dot_S8000x8_S8x128_S8000x128_1_0_0_1_n_n.lhsIdx_val_of_single rfl i q
theorem rhsB_0 (i : S8000x128.Idx) (q : dot_S8000x8_S8x128_S8000x128_1_0_0_1_n_n.contr.Idx) :
    (dot_S8000x8_S8x128_S8000x128_1_0_0_1_n_n.rhsIdx i q 0).val = (q ⟨0, by decide⟩).val :=
  dot_S8000x8_S8x128_S8000x128_1_0_0_1_n_n.rhsIdx_val_of_single rfl i q
theorem rhsB_1 (i : S8000x128.Idx) (q : dot_S8000x8_S8x128_S8000x128_1_0_0_1_n_n.contr.Idx) :
    (dot_S8000x8_S8x128_S8000x128_1_0_0_1_n_n.rhsIdx i q 1).val = (i 1).val := by
  unfold DotDims.rhsIdx
  rw [dif_neg (show ¬(1 : Fin S8x128.rank) ∈ dot_S8000x8_S8x128_S8000x128_1_0_0_1_n_n.rhsBatch by decide), dif_pos (show (1 : Fin S8x128.rank) ∈ dot_S8000x8_S8x128_S8000x128_1_0_0_1_n_n.rhsNonContracting by decide)]
  rfl

/-- The block product into a zero accumulator, at row `p` and column `q`, is the sum over the 8 contracted
    positions of the left factor's row `p` times the right factor's column `q`. -/
theorem matmulB_apply (l : FVec Ideal S8000x8 .f32) (r : FVec Ideal S8x128 .f32) (p : Fin 8000) (q : Fin 128) :
    matmul dot_S8000x8_S8x128_S8000x128_1_0_0_1_n_n none l r (constant (F := Ideal) S8000x128 .f32 0x00000000#32) (ix2 p q)
      = ∑ k : Fin 8, l (ix2 p k) * r (ix2 k q) := by
  simp only [matmul]
  rw [Ideal.matmul_constant_zero_apply, ← Equiv.sum_comp (ValueIdx.contrEquiv1 dot_S8000x8_S8x128_S8000x128_1_0_0_1_n_n 8 rfl rfl).symm]
  refine Finset.sum_congr rfl fun k _ => ?_
  have hk := ValueIdx.contrEquiv1_symm_val dot_S8000x8_S8x128_S8000x128_1_0_0_1_n_n 8 rfl rfl k
  have el : dot_S8000x8_S8x128_S8000x128_1_0_0_1_n_n.lhsIdx (ix2 p q) ((ValueIdx.contrEquiv1 dot_S8000x8_S8x128_S8000x128_1_0_0_1_n_n 8 rfl rfl).symm k) = ix2 p k := funext fun a => Fin.ext (by
    match a with
    | ⟨0, _⟩ => exact lhsB_0 _ _
    | ⟨1, _⟩ => exact (lhsB_1 _ _).trans hk)
  have er : dot_S8000x8_S8x128_S8000x128_1_0_0_1_n_n.rhsIdx (ix2 p q) ((ValueIdx.contrEquiv1 dot_S8000x8_S8x128_S8000x128_1_0_0_1_n_n 8 rfl rfl).symm k) = ix2 k q := funext fun a => Fin.ext (by
    match a with
    | ⟨0, _⟩ => exact (rhsB_0 _ _).trans hk
    | ⟨1, _⟩ => exact rhsB_1 _ _)
  rw [el, er]

/-! ### The contraction of `S8000x128` with `S128x1` -/

theorem lhsC_0 (i : S8000x1.Idx) (q : dot_S8000x128_S128x1_S8000x1_1_0_0_1_n_n.contr.Idx) :
    (dot_S8000x128_S128x1_S8000x1_1_0_0_1_n_n.lhsIdx i q 0).val = (i 0).val := by
  unfold DotDims.lhsIdx
  rw [dif_neg (show ¬(0 : Fin S8000x128.rank) ∈ dot_S8000x128_S128x1_S8000x1_1_0_0_1_n_n.lhsBatch by decide), dif_pos (show (0 : Fin S8000x128.rank) ∈ dot_S8000x128_S128x1_S8000x1_1_0_0_1_n_n.lhsNonContracting by decide)]
  rfl
theorem lhsC_1 (i : S8000x1.Idx) (q : dot_S8000x128_S128x1_S8000x1_1_0_0_1_n_n.contr.Idx) :
    (dot_S8000x128_S128x1_S8000x1_1_0_0_1_n_n.lhsIdx i q 1).val = (q ⟨0, by decide⟩).val :=
  dot_S8000x128_S128x1_S8000x1_1_0_0_1_n_n.lhsIdx_val_of_single rfl i q
theorem rhsC_0 (i : S8000x1.Idx) (q : dot_S8000x128_S128x1_S8000x1_1_0_0_1_n_n.contr.Idx) :
    (dot_S8000x128_S128x1_S8000x1_1_0_0_1_n_n.rhsIdx i q 0).val = (q ⟨0, by decide⟩).val :=
  dot_S8000x128_S128x1_S8000x1_1_0_0_1_n_n.rhsIdx_val_of_single rfl i q
theorem rhsC_1 (i : S8000x1.Idx) (q : dot_S8000x128_S128x1_S8000x1_1_0_0_1_n_n.contr.Idx) :
    (dot_S8000x128_S128x1_S8000x1_1_0_0_1_n_n.rhsIdx i q 1).val = (i 1).val := by
  unfold DotDims.rhsIdx
  rw [dif_neg (show ¬(1 : Fin S128x1.rank) ∈ dot_S8000x128_S128x1_S8000x1_1_0_0_1_n_n.rhsBatch by decide), dif_pos (show (1 : Fin S128x1.rank) ∈ dot_S8000x128_S128x1_S8000x1_1_0_0_1_n_n.rhsNonContracting by decide)]
  rfl

/-- The block product into a zero accumulator, at row `p` and column `q`, is the sum over the 128 contracted
    positions of the left factor's row `p` times the right factor's column `q`. -/
theorem matmulC_apply (l : FVec Ideal S8000x128 .f32) (r : FVec Ideal S128x1 .f32) (p : Fin 8000) (q : Fin 1) :
    matmul dot_S8000x128_S128x1_S8000x1_1_0_0_1_n_n none l r (constant (F := Ideal) S8000x1 .f32 0x00000000#32) (ix2 p q)
      = ∑ k : Fin 128, l (ix2 p k) * r (ix2 k q) := by
  simp only [matmul]
  rw [Ideal.matmul_constant_zero_apply, ← Equiv.sum_comp (ValueIdx.contrEquiv1 dot_S8000x128_S128x1_S8000x1_1_0_0_1_n_n 128 rfl rfl).symm]
  refine Finset.sum_congr rfl fun k _ => ?_
  have hk := ValueIdx.contrEquiv1_symm_val dot_S8000x128_S128x1_S8000x1_1_0_0_1_n_n 128 rfl rfl k
  have el : dot_S8000x128_S128x1_S8000x1_1_0_0_1_n_n.lhsIdx (ix2 p q) ((ValueIdx.contrEquiv1 dot_S8000x128_S128x1_S8000x1_1_0_0_1_n_n 128 rfl rfl).symm k) = ix2 p k := funext fun a => Fin.ext (by
    match a with
    | ⟨0, _⟩ => exact lhsC_0 _ _
    | ⟨1, _⟩ => exact (lhsC_1 _ _).trans hk)
  have er : dot_S8000x128_S128x1_S8000x1_1_0_0_1_n_n.rhsIdx (ix2 p q) ((ValueIdx.contrEquiv1 dot_S8000x128_S128x1_S8000x1_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ### The stored value -/

/-- The logistic function applied lane by lane, at a lane. -/
theorem logistic_apply {s : Shape} (v : FVec Ideal s .f32) (i : s.Idx) : logistic v i = Ideal.logistic (v i) := rfl

/-- The block of pre-activations: the three partial products added left to right, plus the bias row broadcast
    down the 8000 rows. -/
def hidVec (x0 x1 : FVec Ideal S8000x128 .f32) (x2 : FVec Ideal S8000x8 .f32) (x3 x4 : FVec Ideal S128x128 .f32)
    (x5 : FVec Ideal S8x128 .f32) (x6 : FVec Ideal S1x128 .f32) : FVec Ideal S8000x128 .f32 :=
  addf (addf (addf
      (matmul dot_S8000x128_S128x128_S8000x128_1_0_0_1_n_n none (shapeCast S8000x128 x0 shapeCasts_S8000x128_S8000x128)
        (shapeCast S128x128 x3 shapeCasts_S128x128_S128x128) (constant (F := Ideal) S8000x128 .f32 0x00000000#32))
      (matmul dot_S8000x128_S128x128_S8000x128_1_0_0_1_n_n none (shapeCast S8000x128 x1 shapeCasts_S8000x128_S8000x128)
        (shapeCast S128x128 x4 shapeCasts_S128x128_S128x128) (constant (F := Ideal) S8000x128 .f32 0x00000000#32)))
      (matmul dot_S8000x8_S8x128_S8000x128_1_0_0_1_n_n none x2
        (shapeCast S8x128 x5 shapeCasts_S8x128_S8x128) (constant (F := Ideal) S8000x128 .f32 0x00000000#32)))
    (broadcastTo S8000x128 (shapeCast S1x128 x6 shapeCasts_S1x128_S1x128) broadcasts_S1x128_S8000x128)

/-- Row `p` of the block of pre-activations is the three-band pre-activation of edge `p` of the block. -/
theorem hidVec_apply (x0 x1 : FVec Ideal S8000x128 .f32) (x2 : FVec Ideal S8000x8 .f32) (x3 x4 : FVec Ideal S128x128 .f32)
    (x5 : FVec Ideal S8x128 .f32) (x6 : FVec Ideal S1x128 .f32) (p : Fin 8000) (q : Fin 128) :
    hidVec x0 x1 x2 x3 x4 x5 x6 (ix2 p q)
      = pre3 (fun k => x0 (ix2 p k)) (fun k => x1 (ix2 p k)) (fun k => x2 (ix2 p k))
          (fun k j => x3 (ix2 k j)) (fun k j => x4 (ix2 k j)) (fun k j => x5 (ix2 k j)) (fun j => x6 (ix2 0 j)) q := by
  unfold hidVec pre3
  simp only [shapeCast_self, addf_apply, matmulA_apply, matmulB_apply, broadcastTo_1b_ab_apply]

/-- From a block of pre-activations `H` to the stored block: message `H * sigma H`, the gate column
    `sigma (message . x7 + x8)` broadcast along the 128 channels, and their product. -/
theorem gate_apply (H : FVec Ideal S8000x128 .f32) (x7 : FVec Ideal S128x1 .f32) (x8 : FVec Ideal S1x1 .f32)
    (p : Fin 8000) (q : Fin 128) :
    mulf (mulf H (logistic H))
        (broadcastTo S8000x128
          (logistic (addf
            (matmul dot_S8000x128_S128x1_S8000x1_1_0_0_1_n_n none (mulf H (logistic H)) x7 (constant (F := Ideal) S8000x1 .f32 0x00000000#32))
            (broadcastTo S8000x1 (shapeCast S1x1 x8 shapeCasts_S1x1_S1x1) broadcasts_S1x1_S8000x1)))
          broadcasts_S8000x1_S8000x128) (ix2 p q)
      = gated (fun k => H (ix2 p k)) (fun k => x7 (ix2 k 0)) (x8 (ix2 0 0)) q := by
  unfold gated
  simp only [shapeCast_self, mulf_apply, addf_apply, logistic_apply, broadcastTo_a1_ab_apply, matmulC_apply, broadcastTo_1b_ab_apply]

/-- The value the body stores at row `p`, channel `q` of its output block. -/
theorem pay_apply (x0 x1 : FVec Ideal S8000x128 .f32) (x2 : FVec Ideal S8000x8 .f32) (x3 x4 : FVec Ideal S128x128 .f32)
    (x5 : FVec Ideal S8x128 .f32) (x6 : FVec Ideal S1x128 .f32) (x7 : FVec Ideal S128x1 .f32) (x8 : FVec Ideal S1x1 .f32)
    (p : Fin 8000) (q : Fin 128) :
    k0_pay1 (F := Ideal) x0 x3 x1 x4 x2 x5 x6 x7 x8 (ix2 p q)
      = gated (pre3 (fun k => x0 (ix2 p k)) (fun k => x1 (ix2 p k)) (fun k => x2 (ix2 p k))
          (fun k j => x3 (ix2 k j)) (fun k j => x4 (ix2 k j)) (fun k j => x5 (ix2 k j)) (fun j => x6 (ix2 0 j)))
          (fun k => x7 (ix2 k 0)) (x8 (ix2 0 0)) q := by
  have e : k0_pay1 (F := Ideal) x0 x3 x1 x4 x2 x5 x6 x7 x8
      = mulf (mulf (hidVec x0 x1 x2 x3 x4 x5 x6) (logistic (hidVec x0 x1 x2 x3 x4 x5 x6)))
        (broadcastTo S8000x128
          (logistic (addf
            (matmul dot_S8000x128_S128x1_S8000x1_1_0_0_1_n_n none (mulf (hidVec x0 x1 x2 x3 x4 x5 x6) (logistic (hidVec x0 x1 x2 x3 x4 x5 x6))) x7 (constant (F := Ideal) S8000x1 .f32 0x00000000#32))
            (broadcastTo S8000x1 (shapeCast S1x1 x8 shapeCasts_S1x1_S1x1) broadcasts_S1x1_S8000x1)))
          broadcasts_S8000x1_S8000x128) := rfl
  rw [e, gate_apply]
  exact congrArg (fun h => gated h (fun k => x7 (ix2 k 0)) (x8 (ix2 0 0)) q)
    (funext fun k => hidVec_apply x0 x1 x2 x3 x4 x5 x6 p k)

end Cert.KernelIdeal.BlockValue

end
-- ==== Proof.KernelArray.lean ====
/-
  The kernel's result array, as one function of the arrays the region finds.

  The grid has 80 points; point `t` works on edges `8000 t .. 8000 t + 7999`: the blocks of the three per-edge
  operands and of the result are the row bands `[8000 t, 8000 t + 8000)`, the six parameter operands are whole
  blocks at every point.  Since an edge's stored row depends only on that edge's own rows, the block point `t`
  writes back is rows `8000 t ..` of ONE whole-array function `GK`, and the 80 row bands tile the 640000 rows.
-/
import proofs.«155538_j14886356648021_1_alg».proof.Proof.Gen.KernelIdeal.Frame
import proofs.«155538_j14886356648021_1_alg».proof.Proof.KernelBlock
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.BlockValue Idealize.ShloMosaic Idealize.ShloMosaic.TcCoe
open Idealize.ShloMosaic.ValueIdx Idealize.SL.Sem Cert.EdgeGate
open Idealize.ShloMosaic.Pipeline (Dat Cfg Window)

variable (m : (ℓ : Loc nD τ sig) → Buf (Elt Ideal) ℓ) (ρ : Dev nD → PrngReg)

/-- The gated messages of all 640000 edges from the per-edge rows `A`, `B`, `C`, the three weight bands, the bias
    row, the gate's weight column and the gate's bias: entry `(e, j)` is `gated` of edge `e`'s three-band
    pre-activation row. -/
def GK (A B : FVec Ideal S640000x128 .f32) (C : FVec Ideal S640000x8 .f32) (Ws Wr : FVec Ideal S128x128 .f32)
    (We : FVec Ideal S8x128 .f32) (bv : FVec Ideal S1x128 .f32) (Wi : FVec Ideal S128x1 .f32) (bi : FVec Ideal S1x1 .f32) :
    FVec Ideal S640000x128 .f32 := fun i =>
  gated (pre3 (fun k => A (ix2 (i 0) k)) (fun k => B (ix2 (i 0) k)) (fun k => C (ix2 (i 0) k))
      (fun k j => Ws (ix2 k j)) (fun k j => Wr (ix2 k j)) (fun k j => We (ix2 k j)) (fun j => bv (ix2 0 j)))
    (fun k => Wi (ix2 k 0)) (bi (ix2 0 0)) (i 1)

theorem hz : (![0, 0] : Fin 2 → Nat) = fun _ => 0 := funext fun a => by fin_cases a <;> rfl

/-- The printed index maps, decided over the 80 grid points: the per-edge operands and the result are at row block
    `t`, the parameters at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 80 := lt_of_lt_of_eq t.isLt N_0

/-- Edge `p` of point `t`'s block is edge `8000 t + p` of the whole arrays. -/
def edge (t : Fin cfg0.N) (p : Fin 8000) : Fin 640000 :=
  ⟨8000 * t.val + p.val, by have := t_lt t; have := p.isLt; omega⟩

theorem emb0 (t : Fin cfg0.N) (p : Fin 8000) (k : Fin 128) :
    ((cfg0.win 0).blk t).view.emb (ix2 p k) = ix2 (edge t p) k := by
  obtain ⟨e00, e01, e10, e11, e20, e21, e30, e31, e40, e41, e50, e51, e60, e61, e70, e71, e80, e81, e90, e91⟩ := idx_facts t
  funext a; apply Fin.ext
  match a with
  | ⟨0, _⟩ => show win0_0.index t (0 : Fin 2) * 8000 + 1 * p.val = 8000 * t.val + p.val; omega
  | ⟨1, _⟩ => show win0_0.index t (1 : Fin 2) * 128 + 1 * k.val = k.val; omega

theorem emb1 (t : Fin cfg0.N) (p : Fin 8000) (k : Fin 128) :
    ((cfg0.win 1).blk t).view.emb (ix2 p k) = ix2 (edge t p) k := by
  obtain ⟨e00, e01, e10, e11, e20, e21, e30, e31, e40, e41, e50, e51, e60, e61, e70, e71, e80, e81, e90, e91⟩ := idx_facts t
  funext a; apply Fin.ext
  match a with
  | ⟨0, _⟩ => show win0_1.index t (0 : Fin 2) * 8000 + 1 * p.val = 8000 * t.val + p.val; omega
  | ⟨1, _⟩ => show win0_1.index t (1 : Fin 2) * 128 + 1 * k.val = k.val; omega

theorem emb2 (t : Fin cfg0.N) (p : Fin 8000) (k : Fin 8) :
    ((cfg0.win 2).blk t).view.emb (ix2 p k) = ix2 (edge t p) k := by
  obtain ⟨e00, e01, e10, e11, e20, e21, e30, e31, e40, e41, e50, e51, e60, e61, e70, e71, e80, e81, e90, e91⟩ := idx_facts t
  funext a; apply Fin.ext
  match a with
  | ⟨0, _⟩ => show win0_2.index t (0 : Fin 2) * 8000 + 1 * p.val = 8000 * t.val + p.val; omega
  | ⟨1, _⟩ => show win0_2.index t (1 : Fin 2) * 8 + 1 * k.val = k.val; omega

theorem emb9 (t : Fin cfg0.N) (p : Fin 8000) (k : Fin 128) :
    ((cfg0.win 9).blk t).view.emb (ix2 p k) = ix2 (edge t p) k := by
  obtain ⟨e00, e01, e10, e11, e20, e21, e30, e31, e40, e41, e50, e51, e60, e61, e70, e71, e80, e81, e90, e91⟩ := idx_facts t
  funext a; apply Fin.ext
  match a with
  | ⟨0, _⟩ => show win0_9.index t (0 : Fin 2) * 8000 + 1 * p.val = 8000 * t.val + p.val; omega
  | ⟨1, _⟩ => show win0_9.index t (1 : Fin 2) * 128 + 1 * k.val = k.val; omega

theorem emb3 (t : Fin cfg0.N) (p : Fin 128) (k : Fin 128) :
    ((cfg0.win 3).blk t).view.emb (ix2 p k) = ix2 p k := by
  obtain ⟨e00, e01, e10, e11, e20, e21, e30, e31, e40, e41, e50, e51, e60, e61, e70, e71, e80, e81, e90, e91⟩ := idx_facts t
  funext a; apply Fin.ext
  match a with
  | ⟨0, _⟩ => show win0_3.index t (0 : Fin 2) * 128 + 1 * p.val = p.val; omega
  | ⟨1, _⟩ => show win0_3.index t (1 : Fin 2) * 128 + 1 * k.val = k.val; omega

theorem emb4 (t : Fin cfg0.N) (p : Fin 128) (k : Fin 128) :
    ((cfg0.win 4).blk t).view.emb (ix2 p k) = ix2 p k := by
  obtain ⟨e00, e01, e10, e11, e20, e21, e30, e31, e40, e41, e50, e51, e60, e61, e70, e71, e80, e81, e90, e91⟩ := idx_facts t
  funext a; apply Fin.ext
  match a with
  | ⟨0, _⟩ => show win0_4.index t (0 : Fin 2) * 128 + 1 * p.val = p.val; omega
  | ⟨1, _⟩ => show win0_4.index t (1 : Fin 2) * 128 + 1 * k.val = k.val; omega

theorem emb5 (t : Fin cfg0.N) (p : Fin 8) (k : Fin 128) :
    ((cfg0.win 5).blk t).view.emb (ix2 p k) = ix2 p k := by
  obtain ⟨e00, e01, e10, e11, e20, e21, e30, e31, e40, e41, e50, e51, e60, e61, e70, e71, e80, e81, e90, e91⟩ := idx_facts t
  funext a; apply Fin.ext
  match a with
  | ⟨0, _⟩ => show win0_5.index t (0 : Fin 2) * 8 + 1 * p.val = p.val; omega
  | ⟨1, _⟩ => show win0_5.index t (1 : Fin 2) * 128 + 1 * k.val = k.val; omega

theorem emb6 (t : Fin cfg0.N) (p : Fin 1) (k : Fin 128) :
    ((cfg0.win 6).blk t).view.emb (ix2 p k) = ix2 p k := by
  obtain ⟨e00, e01, e10, e11, e20, e21, e30, e31, e40, e41, e50, e51, e60, e61, e70, e71, e80, e81, e90, e91⟩ := idx_facts t
  funext a; apply Fin.ext
  match a with
  | ⟨0, _⟩ => show win0_6.index t (0 : Fin 2) * 1 + 1 * p.val = p.val; omega
  | ⟨1, _⟩ => show win0_6.index t (1 : Fin 2) * 128 + 1 * k.val = k.val; omega

theorem emb7 (t : Fin cfg0.N) (p : Fin 128) (k : Fin 1) :
    ((cfg0.win 7).blk t).view.emb (ix2 p k) = ix2 p k := by
  obtain ⟨e00, e01, e10, e11, e20, e21, e30, e31, e40, e41, e50, e51, e60, e61, e70, e71, e80, e81, e90, e91⟩ := idx_facts t
  funext a; apply Fin.ext
  match a with
  | ⟨0, _⟩ => show win0_7.index t (0 : Fin 2) * 128 + 1 * p.val = p.val; omega
  | ⟨1, _⟩ => show win0_7.index t (1 : Fin 2) * 1 + 1 * k.val = k.val; omega

theorem emb8 (t : Fin cfg0.N) (p : Fin 1) (k : Fin 1) :
    ((cfg0.win 8).blk t).view.emb (ix2 p k) = ix2 p k := by
  obtain ⟨e00, e01, e10, e11, e20, e21, e30, e31, e40, e41, e50, e51, e60, e61, e70, e71, e80, e81, e90, e91⟩ := idx_facts t
  funext a; apply Fin.ext
  match a with
  | ⟨0, _⟩ => show win0_8.index t (0 : Fin 2) * 1 + 1 * p.val = p.val; omega
  | ⟨1, _⟩ => show win0_8.index t (1 : Fin 2) * 1 + 1 * k.val = k.val; omega

/-- Each input block read at an entry is its array read at the entry's place in the array. -/
theorem blk0 (c : Dev nD) (t : Fin cfg0.N) (p : Fin 8000) (k : Fin 128) :
    iblk m c 0 t (ix2 p k) = V m c main_v6 (ix2 (edge t p) k) := by
  show V m c main_v6 (((cfg0.win 0).blk t).view.emb (ix2 p k)) = _
  rw [emb0]
theorem blk1 (c : Dev nD) (t : Fin cfg0.N) (p : Fin 8000) (k : Fin 128) :
    iblk m c 1 t (ix2 p k) = V m c main_v13 (ix2 (edge t p) k) := by
  show V m c main_v13 (((cfg0.win 1).blk t).view.emb (ix2 p k)) = _
  rw [emb1]
theorem blk2 (c : Dev nD) (t : Fin cfg0.N) (p : Fin 8000) (k : Fin 8) :
    iblk m c 2 t (ix2 p k) = V m c main_arg2 (ix2 (edge t p) k) := by
  show V m c main_arg2 (((cfg0.win 2).blk t).view.emb (ix2 p k)) = _
  rw [emb2]
theorem blk3 (c : Dev nD) (t : Fin cfg0.N) (p : Fin 128) (k : Fin 128) :
    iblk m c 3 t (ix2 p k) = V m c main_v14 (ix2 p k) := by
  show V m c main_v14 (((cfg0.win 3).blk t).view.emb (ix2 p k)) = _
  rw [emb3]
theorem blk4 (c : Dev nD) (t : Fin cfg0.N) (p : Fin 128) (k : Fin 128) :
    iblk m c 4 t (ix2 p k) = V m c main_v15 (ix2 p k) := by
  show V m c main_v15 (((cfg0.win 4).blk t).view.emb (ix2 p k)) = _
  rw [emb4]
theorem blk5 (c : Dev nD) (t : Fin cfg0.N) (p : Fin 8) (k : Fin 128) :
    iblk m c 5 t (ix2 p k) = V m c main_v16 (ix2 p k) := by
  show V m c main_v16 (((cfg0.win 5).blk t).view.emb (ix2 p k)) = _
  rw [emb5]
theorem blk6 (c : Dev nD) (t : Fin cfg0.N) (p : Fin 1) (k : Fin 128) :
    iblk m c 6 t (ix2 p k) = V m c main_v17 (ix2 p k) := by
  show V m c main_v17 (((cfg0.win 6).blk t).view.emb (ix2 p k)) = _
  rw [emb6]
theorem blk7 (c : Dev nD) (t : Fin cfg0.N) (p : Fin 128) (k : Fin 1) :
    iblk m c 7 t (ix2 p k) = V m c main_arg5 (ix2 p k) := by
  show V m c main_arg5 (((cfg0.win 7).blk t).view.emb (ix2 p k)) = _
  rw [emb7]
theorem blk8 (c : Dev nD) (t : Fin cfg0.N) (p : Fin 1) (k : Fin 1) :
    iblk m c 8 t (ix2 p k) = V m c main_v18 (ix2 p k) := by
  show V m c main_v18 (((cfg0.win 8).blk t).view.emb (ix2 p k)) = _
  rw [emb8]

/-- The kernel's result array as the region leaves it: `GK` of the nine arrays the region finds. -/
abbrev GKV (c : Dev nD) : FVec Ideal S640000x128 .f32 :=
  GK (V m c main_v6) (V m c main_v13) (V m c main_arg2) (V m c main_v14) (V m c main_v15) (V m c main_v16)
    (V m c main_v17) (V m c main_arg5) (V m c main_v18)

/-- WHAT POINT `t` WRITES BACK is rows `8000 t ..` of `GK` of the arrays as the region finds them. -/
theorem flushed9_eq (c : Dev nD) (t : Fin cfg0.N) :
    (dats m 0 c).flushed 9 t = ((cfg0.win 9).blk t).view.read (Elt Ideal) (GKV m c) := by
  show (cfg0.win 9).cut (grid0.coords t) ((dats m 0 c).after 9 t) = _
  rw [after0_9]
  unfold out0_9
  rw [View.canon_unit_zero hz]
  simp only [View.ld_unit_zero (S := S8000x128) hz, View.ld_unit_zero (S := S128x128) hz, View.ld_unit_zero (S := S8000x8) hz,
    View.ld_unit_zero (S := S8x128) hz, View.ld_unit_zero (S := S1x128) hz, View.ld_unit_zero (S := S128x1) hz,
    View.ld_unit_zero (S := S1x1) hz]
  funext j
  obtain ⟨p, q, rfl⟩ : ∃ (p : Fin 8000) (q : Fin 128), j = ix2 p q := ⟨j 0, j 1, eq_ix2 j⟩
  refine (pay_apply (iblk m c 0 t) (iblk m c 1 t) (iblk m c 2 t) (iblk m c 3 t) (iblk m c 4 t) (iblk m c 5 t)
    (iblk m c 6 t) (iblk m c 7 t) (iblk m c 8 t) p q).trans ?_
  show _ = GKV m c (((cfg0.win 9).blk t).view.emb (ix2 p q))
  rw [emb9]
  unfold GKV GK
  simp only [blk0, blk1, blk2, blk3, blk4, blk5, blk6, blk7, blk8]

/-- An index of the result array is in point `t`'s block iff each coordinate is in the block's range on its axis. -/
theorem mem_blk9 (t : Fin cfg0.N) (i : S640000x128.Idx) :
    i ∈ ((cfg0.win 9).blk t).view.set ↔ ∀ a : Fin 2, win0_9.index t a * S8000x128.size a ≤ (i a).val ∧ (i a).val < win0_9.index t a * S8000x128.size a + S8000x128.size a := by
  show i ∈ ((View.whole main_v19).slice (win0_9.rect t)).set ↔ _
  rw [View.set_slice_whole, Rect.mem_set_unit]
  exact Iff.rfl

/-- Every edge's row lies in the block of the point `e / 8000`: the 80 row bands tile the array. -/
theorem cover9 (i : S640000x128.Idx) :
    ∃ t : Fin cfg0.N, (cfg0.win 9).flush t = true ∧ i ∈ ((cfg0.win 9).blk t).view.set := by
  have hi0 : (i 0).val < 640000 := (i 0).isLt
  have hi1 : (i 1).val < 128 := (i 1).isLt
  have ht : (i 0).val / 8000 < cfg0.N := by rw [show cfg0.N = 80 from N_0]; omega
  refine ⟨⟨(i 0).val / 8000, ht⟩, flush0_9 _, ?_⟩
  rw [mem_blk9]
  obtain ⟨e00, e01, e10, e11, e20, e21, e30, e31, e40, e41, e50, e51, e60, e61, e70, e71, e80, e81, e90, e91⟩ := idx_facts ⟨(i 0).val / 8000, ht⟩
  intro a
  match a with
  | ⟨0, _⟩ =>
    show win0_9.index ⟨(i 0).val / 8000, ht⟩ (0 : Fin 2) * 8000 ≤ (i 0).val ∧ (i 0).val < win0_9.index ⟨(i 0).val / 8000, ht⟩ (0 : Fin 2) * 8000 + 8000
    rw [e90]; show (i 0).val / 8000 * 8000 ≤ (i 0).val ∧ (i 0).val < (i 0).val / 8000 * 8000 + 8000; omega
  | ⟨1, _⟩ =>
    show win0_9.index ⟨(i 0).val / 8000, ht⟩ (1 : Fin 2) * 128 ≤ (i 1).val ∧ (i 1).val < win0_9.index ⟨(i 0).val / 8000, ht⟩ (1 : Fin 2) * 128 + 128
    rw [e91]; omega

/-- THE RESULT ARRAY after the region: `GK` of the arrays the region finds. -/
theorem final9 (c : Dev nD) : (dats m 0 c).arrAt 9 cfg0.N = GKV m c :=
  (dats m 0 c).arrAt_eq_of_cover 9 (GKV m c) (fun t _ => flushed9_eq m c t) cover9

/-! ## The host lines before the region: what each operand array holds when the region is entered -/

/-- The rows of `x` the indices name, one per edge: an index below zero counts from the end, then the row is taken. -/
def rowsOf (x : (⟨S40000x128, .f32⟩ : BufTy).Contents (Elt Ideal)) (idx : (⟨S640000, .i32⟩ : BufTy).Contents (Elt Ideal)) :
    (⟨S640000x128, .f32⟩ : BufTy).Contents (Elt Ideal) :=
  Host.gather gather_S40000x128_S640000x1_S640000x128_1_0_n_n_0_1_1128 x
    (broadcastInDim S640000x1 ![0] bcast_S640000_S640000x1_0
      (select (cmpi .slt idx (broadcastInDim S640000 ![] bcast_S_S640000 (constantI S_ 32 0#32)))
        (addi idx (broadcastInDim S640000 ![] bcast_S_S640000 (constantI S_ 32 40000#32))) idx))

/-- The per-edge rows summed into their receivers' rows, from zero. -/
def aggregate (idx : (⟨S640000, .i32⟩ : BufTy).Contents (Elt Ideal)) (u : (⟨S640000x128, .f32⟩ : BufTy).Contents (Elt Ideal)) :
    (⟨S40000x128, .f32⟩ : BufTy).Contents (Elt Ideal) :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 idx) u

theorem V_v6 (c : Dev nD) :
    V m c main_v6 = rowsOf (m ((c.tc : Thread nD τ).loc main_arg0)) (m ((c.tc : Thread nD τ).loc main_arg7)) := by
  show StableHlo.after hostOps0 (fun b => m (c, b)) (Proc.devRef .tc main_v6) = _
  after_results <;> rfl
theorem V_v13 (c : Dev nD) :
    V m c main_v13 = rowsOf (m ((c.tc : Thread nD τ).loc main_arg1)) (m ((c.tc : Thread nD τ).loc main_arg8)) := by
  show StableHlo.after hostOps0 (fun b => m (c, b)) (Proc.devRef .tc main_v13) = _
  after_results <;> rfl
theorem V_v14 (c : Dev nD) :
    V m c main_v14 = extractStridedSlice S128x128 ![0, 0] (m ((c.tc : Thread nD τ).loc main_arg3)) slices_S264x128_S128x128_0_0 := by
  show StableHlo.after hostOps0 (fun b => m (c, b)) (Proc.devRef .tc main_v14) = _
  after_results <;> rfl
theorem V_v15 (c : Dev nD) :
    V m c main_v15 = extractStridedSlice S128x128 ![128, 0] (m ((c.tc : Thread nD τ).loc main_arg3)) slices_S264x128_S128x128_128_0 := by
  show StableHlo.after hostOps0 (fun b => m (c, b)) (Proc.devRef .tc main_v15) = _
  after_results <;> rfl
theorem V_v16 (c : Dev nD) :
    V m c main_v16 = extractStridedSlice S8x128 ![256, 0] (m ((c.tc : Thread nD τ).loc main_arg3)) slices_S264x128_S8x128_256_0 := by
  show StableHlo.after hostOps0 (fun b => m (c, b)) (Proc.devRef .tc main_v16) = _
  after_results <;> rfl
theorem V_v17 (c : Dev nD) :
    V m c main_v17 = shapeCast S1x128 (m ((c.tc : Thread nD τ).loc main_arg4)) shapeCasts_S128_S1x128 := by
  show StableHlo.after hostOps0 (fun b => m (c, b)) (Proc.devRef .tc main_v17) = _
  after_results <;> rfl
theorem V_v18 (c : Dev nD) :
    V m c main_v18 = shapeCast S1x1 (m ((c.tc : Thread nD τ).loc main_arg6)) shapeCasts_S1_S1x1 := by
  show StableHlo.after hostOps0 (fun b => m (c, b)) (Proc.devRef .tc main_v18) = _
  after_results <;> rfl

/-- The kernel's gated messages as a function of the program's arguments. -/
def weighted (c : Dev nD) : FVec Ideal S640000x128 .f32 :=
  GK (rowsOf (m ((c.tc : Thread nD τ).loc main_arg0)) (m ((c.tc : Thread nD τ).loc main_arg7)))
    (rowsOf (m ((c.tc : Thread nD τ).loc main_arg1)) (m ((c.tc : Thread nD τ).loc main_arg8)))
    (m ((c.tc : Thread nD τ).loc main_arg2))
    (extractStridedSlice S128x128 ![0, 0] (m ((c.tc : Thread nD τ).loc main_arg3)) slices_S264x128_S128x128_0_0)
    (extractStridedSlice S128x128 ![128, 0] (m ((c.tc : Thread nD τ).loc main_arg3)) slices_S264x128_S128x128_128_0)
    (extractStridedSlice S8x128 ![256, 0] (m ((c.tc : Thread nD τ).loc main_arg3)) slices_S264x128_S8x128_256_0)
    (shapeCast S1x128 (m ((c.tc : Thread nD τ).loc main_arg4)) shapeCasts_S128_S1x128)
    (m ((c.tc : Thread nD τ).loc main_arg5))
    (shapeCast S1x1 (m ((c.tc : Thread nD τ).loc main_arg6)) shapeCasts_S1_S1x1)

theorem GKV_eq (c : Dev nD) : GKV m c = weighted m c := by
  unfold GKV weighted
  rw [V_v6, V_v13, V_main_arg2, V_v14, V_v15, V_v16, V_v17, V_main_arg5, V_v18]

/-! ## The host lines after the region -/

/-- The program's result: the region's array summed into the receivers' rows. -/
theorem result_eq (c : Dev nD) :
    Pipeline.afterTail₀ cfgs (dats m) 0 (V0 m) [hostOps1] c main_v22
      = aggregate (m ((c.tc : Thread nD τ).loc main_arg8)) (weighted m c) := by
  unfold Pipeline.afterTail₀
  show StableHlo.after hostOps1 _ (Proc.devRef .tc main_v22) = _
  after_results
  have hA : Pipeline.withArrays (cfgs 0).spec c (V0 m c) (fun w => (dats m 0 c).arrAt w (cfgs 0).N) (Proc.devRef .tc main_v19)
      = weighted m c :=
    ((Pipeline.withArrays_arr spec0 launch0.win.arr_inj c _ _ 9).trans (final9 m c)).trans (GKV_eq m c)
  have hI : Pipeline.withArrays (cfgs 0).spec c (V0 m c) (fun w => (dats m 0 c).arrAt w (cfgs 0).N) (Proc.devRef .tc main_arg8)
      = m ((c.tc : Thread nD τ).loc main_arg8) :=
    (Pipeline.withArrays_of_ne _ c (V0 m c) _ main_arg8 (by exact (by decide : ∀ w, Pipeline.arrRef spec0 w ≠ main_arg8))).trans (V_main_arg8 m c)
  rw [hA, hI]
  rfl

/-! ## The run, read -/

/-- Every weakly fair execution of the kernel's program terminates with its result at the gated messages summed into
    the receivers' rows, the arguments unchanged. -/
theorem run : θ_run defs (onTc (τ := τ) (main (F := Ideal))) ⟨m, fun _ => 0, ρ⟩ fun r => ∀ c : Dev nD,
      r.2.mem ((c.tc : Thread nD τ).loc main_v22) = aggregate (m ((c.tc : Thread nD τ).loc main_arg8)) (weighted m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      (((h c).2 main_v22 (Pipeline.mem_restRefs_of main_v22 (by decide) (by decide))).trans (result_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 7).trans (((dats m 0 c).arrAt_in 7 rfl _).trans ((A_eq m c 7).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.ArrayValue

end
-- ==== Proof.RefArray.lean ====
/-
  The reference's gated messages, entry by entry.

  The reference joins each edge's sender row, receiver row and attribute row into one row of 264 numbers, takes
  one product with the whole 264 x 128 weight matrix, adds the bias, and applies message and gate exactly as
  `gated` does; its logistic function is spelt `1 / (1 + exp (-x))`, which on the extended reals is the logistic
  function itself.  So entry `(e, j)` of the array it scatters is `gated` of edge `e`'s pre-activation row in its
  one-product form `pre1`, over the joined row `cat`.
-/
import proofs.«155538_j14886356648021_1_alg».proof.Proof.Gen.ReferenceIdeal.Read
import proofs.«155538_j14886356648021_1_alg».proof.Proof.RowGate
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.EdgeGate

/-- The three arrays joined along the second axis, read at `(e, k)`: the joined row of edge `e` at position `k`. -/
theorem cat3_apply (A B : FVec Ideal S640000x128 .f32) (C : FVec Ideal S640000x8 .f32)
    (e : Fin 640000) (k : Fin 264) :
    concatenate S640000x264 1 [⟨S640000x128, A⟩, ⟨S640000x128, B⟩, ⟨S640000x8, C⟩]
        concatenates_S640000x128_S640000x128_S640000x8_S640000x264_d1 (ix2 e k)
      = cat (fun k => A (ix2 e k)) (fun k => B (ix2 e k)) (fun k => C (ix2 e k)) k := by
  unfold cat
  by_cases h1 : k.val < 128
  · rw [dif_pos h1]
    exact concatenate_apply_piece (1 : Fin 2) [⟨S640000x128, A⟩, ⟨S640000x128, B⟩, ⟨S640000x8, C⟩] _ (ix2 e k) 0 (by show (0 : Nat) < 3; omega) S640000x128 A rfl rfl 0 rfl (ix2 e ⟨k.val, h1⟩)
      (fun b hb => by
        match b with
        | ⟨0, _⟩ => rfl
        | ⟨1, _⟩ => exact absurd rfl hb)
      (by show 0 + k.val = k.val; omega)
  · rw [dif_neg h1]
    by_cases h2 : k.val < 256
    · rw [dif_pos h2]
      exact concatenate_apply_piece (1 : Fin 2) [⟨S640000x128, A⟩, ⟨S640000x128, B⟩, ⟨S640000x8, C⟩] _ (ix2 e k) 1 (by show (1 : Nat) < 3; omega) S640000x128 B rfl rfl 128 rfl (ix2 e ⟨k.val - 128, by omega⟩)
        (fun b hb => by
          match b with
          | ⟨0, _⟩ => rfl
          | ⟨1, _⟩ => exact absurd rfl hb)
        (by show 128 + (k.val - 128) = k.val; omega)
    · rw [dif_neg h2]
      exact concatenate_apply_piece (1 : Fin 2) [⟨S640000x128, A⟩, ⟨S640000x128, B⟩, ⟨S640000x8, C⟩] _ (ix2 e k) 2 (by show (2 : Nat) < 3; omega) S640000x8 C rfl rfl 256 rfl (ix2 e ⟨k.val - 256, by have := k.isLt; omega⟩)
        (fun b hb => by
          match b with
          | ⟨0, _⟩ => rfl
          | ⟨1, _⟩ => exact absurd rfl hb)
        (by show 256 + (k.val - 256) = k.val; omega)

/-- The host's `1 / (1 + exp (-x))` is the logistic function. -/
theorem sigmoid_form (h : EReal) :
    FloatOps.hostDivf (F := Ideal) (φ := .f32) (FloatOps.ofBits .f32 0x3F800000#32)
      (FloatOps.addf (FloatOps.ofBits .f32 0x3F800000#32) (FloatOps.hostUnary .exp (FloatOps.hostNegf h)))
      = Ideal.logistic h := by
  show Ideal.div (Ideal.ofBits .f32 0x3F800000#32) (Ideal.ofBits .f32 0x3F800000#32 + Ideal.exp (-h)) = Ideal.div 1 (1 + Ideal.exp (-h))
  rw [Ideal.ofBits_one_f32]

variable (x0 x1 : FVec Ideal S40000x128 .f32) (x2 : FVec Ideal S640000x8 .f32) (x3 : FVec Ideal S264x128 .f32)
  (x4 : FVec Ideal S128 .f32) (x5 : FVec Ideal S128x1 .f32) (x6 : FVec Ideal S1 .f32) (x7 x8 : IVec S640000 32)

/-- Edge `e`'s pre-activation row in the reference: one product of its joined row with the weight matrix, plus the bias. -/
abbrev preR (e : Fin 640000) : Fin 128 → EReal :=
  pre1 (cat (fun k => val_main_v6 (F := Ideal) x0 x7 (ix2 e k)) (fun k => val_main_v13 (F := Ideal) x1 x8 (ix2 e k)) (fun k => x2 (ix2 e k)))
    (fun k j => x3 (ix2 k j)) (fun j => x4 (ix1 j))

theorem v18_at (e : Fin 640000) (j : Fin 128) :
    val_main_v18 (F := Ideal) x0 x1 x2 x3 x4 x7 x8 (ix2 e j) = preR x0 x1 x2 x3 x4 x7 x8 e j := by
  have h1 : ∀ k, lidx_main_v15 (ix2 e j) k = ix2 e k := fun k => funext fun a => by
    match a with
    | ⟨0, _⟩ => rfl
    | ⟨1, _⟩ => rfl
  have h2 : ∀ k, ridx_main_v15 (ix2 e j) k = ix2 k j := fun k => funext fun a => by
    match a with
    | ⟨0, _⟩ => rfl
    | ⟨1, _⟩ => rfl
  have h3 : idx_main_v16 (idx_main_v17 (ix2 e j)) = ix1 j := funext fun a => by
    match a with
    | ⟨0, _⟩ => rfl
  rw [val_main_v18_apply, val_main_v15_apply, val_main_v17_apply, val_main_v16_apply]
  unfold preR pre1 val_main_v14
  simp only [h1, h2, h3, cat3_apply]
  rfl

/-- The message of edge `e` at channel `j`: the pre-activation times its logistic. -/
theorem v19_at (e : Fin 640000) (j : Fin 128) :
    val_main_v19 (F := Ideal) x0 x1 x2 x3 x4 x7 x8 (ix2 e j)
      = preR x0 x1 x2 x3 x4 x7 x8 e j * Ideal.logistic (preR x0 x1 x2 x3 x4 x7 x8 e j) := by
  rw [val_main_v19_apply, val_main_call0_v5_apply, val_main_call0_v4_apply, val_main_call0_cst_0_apply,
    val_main_call0_v3_apply, val_main_call0_v2_apply, val_main_call0_cst_apply, val_main_call0_v1_apply,
    val_main_call0_v0_apply, sigmoid_form, v18_at]
  rfl

/-- The array the reference scatters, as one function of the gathered rows, the attributes and the parameters. -/
def GR (A B : FVec Ideal S640000x128 .f32) (C : FVec Ideal S640000x8 .f32) (W : FVec Ideal S264x128 .f32)
    (bv : FVec Ideal S128 .f32) (Wi : FVec Ideal S128x1 .f32) (bi : FVec Ideal S1 .f32) : FVec Ideal S640000x128 .f32 := fun i =>
  gated (pre1 (cat (fun k => A (ix2 (i 0) k)) (fun k => B (ix2 (i 0) k)) (fun k => C (ix2 (i 0) k)))
      (fun k j => W (ix2 k j)) (fun j => bv (ix1 j)))
    (fun k => Wi (ix2 k 0)) (bi (ix1 0)) (i 1)

/-- The reference's gated messages are `GR` of its gathered rows. -/
theorem v31_eq :
    val_main_v31 (F := Ideal) x0 x1 x2 x3 x4 x5 x6 x7 x8
      = GR (val_main_v6 (F := Ideal) x0 x7) (val_main_v13 (F := Ideal) x1 x8) x2 x3 x4 x5 x6 := by
  funext i
  obtain ⟨e, j, rfl⟩ : ∃ (e : Fin 640000) (j : Fin 128), i = ix2 e j := ⟨i 0, i 1, eq_ix2 i⟩
  have h0 : idx_main_v30 (ix2 e j) = ix2 e (0 : Fin 1) := funext fun a => by
    match a with
    | ⟨0, _⟩ => rfl
    | ⟨1, _⟩ => rfl
  have h1 : ∀ k, lidx_main_v20 (ix2 e (0 : Fin 1)) k = ix2 e k := fun k => funext fun a => by
    match a with
    | ⟨0, _⟩ => rfl
    | ⟨1, _⟩ => rfl
  have h2 : ∀ k, ridx_main_v20 (ix2 e (0 : Fin 1)) k = ix2 k (0 : Fin 1) := fun k => funext fun a => by
    match a with
    | ⟨0, _⟩ => rfl
    | ⟨1, _⟩ => rfl
  have h3 : idx_main_v21 (idx_main_v22 (ix2 e (0 : Fin 1))) = ix1 (0 : Fin 1) := funext fun a => by
    match a with
    | ⟨0, _⟩ => rfl
  rw [val_main_v31_apply, val_main_v30_apply, h0, val_main_v29_apply, val_main_v28_apply, val_main_cst_3_apply,
    val_main_v27_apply, val_main_v26_apply, val_main_cst_apply, val_main_v25_apply, val_main_v24_apply, sigmoid_form,
    val_main_v23_apply, val_main_v20_apply, val_main_v22_apply, val_main_v21_apply, h3]
  simp only [h1, h2, v19_at]
  rfl

end Cert.ReferenceIdeal.RefValue

end
-- ==== Proof.Bridge.lean ====
/-
  The kernel's gated messages and the reference's are one array.

  Both programs gather the same sender and receiver rows.  The kernel multiplies them, and the attribute rows, with
  the three row bands of the first layer's weight matrix it sliced out beforehand and adds the partial products; the
  reference multiplies the joined row with the whole matrix.  A slice's row `k` is row `offset + k` of the matrix,
  the reshaped biases read back the bias vectors, so the kernel's pre-activation is `pre3` over the three bands of
  the very matrix the reference's `pre1` uses, and `pre3_eq_pre1` joins them.  Message and gate are then the same
  function `gated` on both sides.
-/
import proofs.«155538_j14886356648021_1_alg».proof.Proof.KernelArray
import proofs.«155538_j14886356648021_1_alg».proof.Proof.RefArray
import Idealize.ShloMosaic.Lib.ValueLayout

noncomputable section

namespace Cert.Bridge

open Idealize.ShloMosaic Idealize.ShloMosaic.ValueIdx Cert.EdgeGate
open Cert.KernelIdeal.ArrayValue Cert.ReferenceIdeal.RefValue Cert.ReferenceIdeal.Read

variable (x0 x1 : FVec Ideal Cert.KernelIdeal.S40000x128 .f32) (x2 : FVec Ideal Cert.KernelIdeal.S640000x8 .f32)
  (x3 : FVec Ideal Cert.KernelIdeal.S264x128 .f32) (x4 : FVec Ideal Cert.KernelIdeal.S128 .f32)
  (x5 : FVec Ideal Cert.KernelIdeal.S128x1 .f32) (x6 : FVec Ideal Cert.KernelIdeal.S1 .f32)
  (x7 x8 : IVec Cert.KernelIdeal.S640000 32)

/-- The kernel's row gather is the reference's. -/
theorem rowsOf_eq_v6 : rowsOf x0 x7 = val_main_v6 (F := Ideal) x0 x7 := rfl
theorem rowsOf_eq_v13 : rowsOf x1 x8 = val_main_v13 (F := Ideal) x1 x8 := rfl

/-- The first slice of the weight matrix is its rows 0..127. -/
theorem sliceS_eq :
    (fun (k : Fin 128) (j : Fin 128) => extractStridedSlice Cert.KernelIdeal.S128x128 ![0, 0] x3 Cert.KernelIdeal.Gen.slices_S264x128_S128x128_0_0 (ix2 k j))
      = bandS (fun k j => x3 (ix2 k j)) :=
  funext fun k => funext fun j => slice2_axis0_apply 0 x3 _ k j ⟨k.val, by omega⟩ (Nat.zero_add _).symm
/-- The second slice is its rows 128..255. -/
theorem sliceR_eq :
    (fun (k : Fin 128) (j : Fin 128) => extractStridedSlice Cert.KernelIdeal.S128x128 ![128, 0] x3 Cert.KernelIdeal.Gen.slices_S264x128_S128x128_128_0 (ix2 k j))
      = bandR (fun k j => x3 (ix2 k j)) :=
  funext fun k => funext fun j => slice2_axis0_apply 128 x3 _ k j ⟨128 + k.val, by omega⟩ rfl
/-- The third slice is its rows 256..263. -/
theorem sliceE_eq :
    (fun (k : Fin 8) (j : Fin 128) => extractStridedSlice Cert.KernelIdeal.S8x128 ![256, 0] x3 Cert.KernelIdeal.Gen.slices_S264x128_S8x128_256_0 (ix2 k j))
      = bandE (fun k j => x3 (ix2 k j)) :=
  funext fun k => funext fun j => slice2_axis0_apply 256 x3 _ k j ⟨256 + k.val, by omega⟩ rfl
/-- The bias as a one-row matrix reads back the bias vector. -/
theorem bias_eq :
    (fun j : Fin 128 => shapeCast Cert.KernelIdeal.S1x128 x4 Cert.KernelIdeal.Gen.shapeCasts_S128_S1x128 (ix2 (0 : Fin 1) j)) = fun j => x4 (ix1 j) :=
  funext fun j => shapeCast_a_1a_apply x4 _ 0 j
theorem gbias_eq :
    shapeCast Cert.KernelIdeal.S1x1 x6 Cert.KernelIdeal.Gen.shapeCasts_S1_S1x1 (ix2 (0 : Fin 1) (0 : Fin 1)) = x6 (ix1 (0 : Fin 1)) :=
  shapeCast_a_1a_apply x6 _ 0 0

/-- The array the kernel's region produces is the array the reference scatters. -/
theorem gated_arrays_eq :
    GK (rowsOf x0 x7) (rowsOf x1 x8) x2
        (extractStridedSlice Cert.KernelIdeal.S128x128 ![0, 0] x3 Cert.KernelIdeal.Gen.slices_S264x128_S128x128_0_0)
        (extractStridedSlice Cert.KernelIdeal.S128x128 ![128, 0] x3 Cert.KernelIdeal.Gen.slices_S264x128_S128x128_128_0)
        (extractStridedSlice Cert.KernelIdeal.S8x128 ![256, 0] x3 Cert.KernelIdeal.Gen.slices_S264x128_S8x128_256_0)
        (shapeCast Cert.KernelIdeal.S1x128 x4 Cert.KernelIdeal.Gen.shapeCasts_S128_S1x128) x5
        (shapeCast Cert.KernelIdeal.S1x1 x6 Cert.KernelIdeal.Gen.shapeCasts_S1_S1x1)
      = GR (val_main_v6 (F := Ideal) x0 x7) (val_main_v13 (F := Ideal) x1 x8) x2 x3 x4 x5 x6 := by
  funext i
  unfold GK GR
  rw [sliceS_eq, sliceR_eq, sliceE_eq, bias_eq, gbias_eq, rowsOf_eq_v6, rowsOf_eq_v13]
  exact congrArg (fun h => gated h (fun k => x5 (ix2 k 0)) (x6 (ix1 0)) (i 1))
    (funext fun j => pre3_eq_pre1 _ _ _ (fun k j => x3 (ix2 k j)) (fun j => x4 (ix1 j)) j)

/-- The two programs' results: the same array summed into the receivers' rows by the same scatter. -/
theorem results_eq :
    val_main_v34 (F := Ideal) x0 x1 x2 x3 x4 x5 x6 x7 x8
      = aggregate x8 (GK (rowsOf x0 x7) (rowsOf x1 x8) x2
        (extractStridedSlice Cert.KernelIdeal.S128x128 ![0, 0] x3 Cert.KernelIdeal.Gen.slices_S264x128_S128x128_0_0)
        (extractStridedSlice Cert.KernelIdeal.S128x128 ![128, 0] x3 Cert.KernelIdeal.Gen.slices_S264x128_S128x128_128_0)
        (extractStridedSlice Cert.KernelIdeal.S8x128 ![256, 0] x3 Cert.KernelIdeal.Gen.slices_S264x128_S8x128_256_0)
        (shapeCast Cert.KernelIdeal.S1x128 x4 Cert.KernelIdeal.Gen.shapeCasts_S128_S1x128) x5
        (shapeCast Cert.KernelIdeal.S1x1 x6 Cert.KernelIdeal.Gen.shapeCasts_S1_S1x1)) := by
  rw [gated_arrays_eq]
  unfold val_main_v34
  rw [v31_eq]
  rfl

end Cert.Bridge

end
-- ==== Proof.lean ====
/-
  The gated message layer of a graph network: per edge, gather the sender's and the receiver's feature rows, form
  the pre-activation `[send | rec | attr] . W1 + b1`, the message `h * sigma h`, the gate `sigma (message . Wi + bi)`,
  and sum message times gate into the receiver's row.

  The kernel computes the pre-activation as three partial products against the three row bands of `W1`, block by
  block of 8000 edges, with the logistic function as one operation; the reference joins the rows, takes one product,
  and spells the logistic function `1 / (1 + exp (-x))`.  On the extended reals a sum may be split and regrouped
  freely and the two spellings of the logistic function are the same function, so both programs sum the same
  640000 x 128 array of gated messages into the receivers' rows, by the same gather and the same scatter.  The
  equality needs no finiteness: the precondition is never opened.

  The frames of the two kernel programs are the generated ones; the reference's frame is its generated run with the
  result dropped; the idealization rewrote no operation, so `preserves` is trivial.
-/
import proofs.«155538_j14886356648021_1_alg».proof.Defs
import proofs.«155538_j14886356648021_1_alg».proof.Proof.Gen.Kernel
import proofs.«155538_j14886356648021_1_alg».proof.Proof.Gen.Kernel.Skeleton
import proofs.«155538_j14886356648021_1_alg».proof.Proof.Gen.Kernel.Launch
import proofs.«155538_j14886356648021_1_alg».proof.Proof.Gen.Kernel.Points
import proofs.«155538_j14886356648021_1_alg».proof.Proof.Gen.Kernel.Frame
import proofs.«155538_j14886356648021_1_alg».proof.Proof.Gen.KernelIdeal
import proofs.«155538_j14886356648021_1_alg».proof.Proof.Gen.KernelIdeal.Skeleton
import proofs.«155538_j14886356648021_1_alg».proof.Proof.Gen.KernelIdeal.Launch
import proofs.«155538_j14886356648021_1_alg».proof.Proof.Gen.KernelIdeal.Points
import proofs.«155538_j14886356648021_1_alg».proof.Proof.Gen.KernelIdeal.Frame
import proofs.«155538_j14886356648021_1_alg».proof.Proof.Gen.ReferenceIdeal
import proofs.«155538_j14886356648021_1_alg».proof.Proof.Gen.Pre_finite_inputs
import proofs.«155538_j14886356648021_1_alg».proof.Proof.Gen.ReferenceIdeal.Run
import proofs.«155538_j14886356648021_1_alg».proof.Proof.Gen.ReferenceIdeal.Read
import proofs.«155538_j14886356648021_1_alg».proof.Proof.KernelArray
import proofs.«155538_j14886356648021_1_alg».proof.Proof.RefArray
import proofs.«155538_j14886356648021_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its run, with the result forgotten, is its frame. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the gated messages of all edges summed into the receivers' rows: the kernel's array of
    gated messages is the reference's, and the rows are summed by one and the same scatter. -/
theorem algebraic : Cert.algebraic_KernelIdeal_ReferenceIdeal := by
  intro m ρ m' ρ' _ hagree
  refine ⟨fun c => Cert.KernelIdeal.ArrayValue.aggregate
      (m ((c.tc : Thread Cert.KernelIdeal.nD Cert.KernelIdeal.τ).loc Cert.KernelIdeal.main_arg8))
      (Cert.KernelIdeal.ArrayValue.weighted m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v34_eq, h0, h1, h2, h3, h4, h5, h6, h7, h8]
  unfold Cert.KernelIdeal.ArrayValue.weighted
  exact Cert.Bridge.results_eq _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
